-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64 : Shape := ⟨1, ![64]⟩
abbrev S32x1024x1024 : Shape := ⟨3, ![32, 1024, 1024]⟩
abbrev S32x1024 : Shape := ⟨2, ![32, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .slt main_arg1 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  main_v20

def fn {F : FTy → Type} [FloatOps F] (main_arg0 : FVec F S64x512x1024 .f32) (main_arg1 : IVec S64 32) (main_arg2 : FVec F S32x1024x1024 .f32) (main_arg3 : FVec F S32x1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S32x1024x1024 .f32 := Host.absf main_arg2
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024 .f32 := Host.absf main_arg3
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 32 := constantI S_ 32 32#32
  fn_part1 (F := F) main_arg1 main_v13 main_v15 main_c_5
-- ==== Kernel.lean ====
abbrev S64x512x1024 : Shape := ⟨3, ![64, 512, 1024]⟩
abbrev S64 : Shape := ⟨1, ![64]⟩
abbrev S32x1024x1024 : Shape := ⟨3, ![32, 1024, 1024]⟩
abbrev S32x1024 : Shape := ⟨2, ![32, 1024]⟩
abbrev S32x1x1024 : Shape := ⟨3, ![32, 1, 1024]⟩
abbrev S1x512x1024 : Shape := ⟨3, ![1, 512, 1024]⟩
abbrev S1x1024x1024 : Shape := ⟨3, ![1, 1024, 1024]⟩
abbrev S1 : Shape := ⟨1, ![1]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 5
  | .vmem => 8
  | .smem => 1
  | _ => 0

abbrev bufTy : (tb : Table) → Fin (tcTables nBuf tb) → BufTy
  | .hbm, ⟨0, _⟩ => ⟨S64x512x1024, .f32⟩
  | .hbm, ⟨1, _⟩ => ⟨S32x1024x1024, .f32⟩
  | .hbm, ⟨2, _⟩ => ⟨S32x1024, .f32⟩
  | .hbm, ⟨3, _⟩ => ⟨S32x1x1024, .f32⟩
  | .hbm, ⟨4, _⟩ => ⟨S64x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .smem, ⟨0, _⟩ => ⟨S64, .i32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x1024_S32x1x1024 : S32x1024.ShapeCasts S32x1x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x512x1024.size a
  hwx0_3 : ∀ i : grid0.Coords, EltTy.bits .f32 = 32 ∨ (Rect.block (s := S64x512x1024) S1x512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg2) S1x1024x1024.size reads0_1 false false 2 stage0_1 sem0_1 nbuf0_1 hstage0_1

abbrev spec0_2 : Pipeline.WinSpec sig grid0.rank :=
  Pipeline.WinSpec.ofSpec (Memref.whole main_v0) S1x1x1024.size reads0_2 false false 2 stage0_2 sem0_2 nbuf0_2 hstage0_2

abbrev spec0_3 : Pipeline.WinSpec sig grid0.rank :=
  Pipeline.WinSpec.ofSpec (Memref.whole main_v1) S1x512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S32x1024x1024.size a), EltTy.bits .f32 = 32 ∨ (Rect.block (s := S32x1024x1024) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S32x1x1024.size a), EltTy.bits .f32 = 32 ∨ (Rect.block (s := S32x1x1024) S1x1x1024.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x512x1024 : Shape := ⟨3, ![64, 512, 1024]⟩
abbrev S64 : Shape := ⟨1, ![64]⟩
abbrev S32x1024x1024 : Shape := ⟨3, ![32, 1024, 1024]⟩
abbrev S32x1024 : Shape := ⟨2, ![32, 1024]⟩
abbrev S_ : Shape := ⟨0, ![]⟩
abbrev S64x1 : Shape := ⟨2, ![64, 1]⟩
abbrev S64x1024x1024 : Shape := ⟨3, ![64, 1024, 1024]⟩
abbrev S64x1024 : Shape := ⟨2, ![64, 1024]⟩
abbrev S64x1x1024 : Shape := ⟨3, ![64, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64, .i32⟩
  | .hbm, ⟨2, _⟩ => ⟨S32x1024x1024, .f32⟩
  | .hbm, ⟨3, _⟩ => ⟨S32x1024, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x1024x1024, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x1024, .f32⟩
  | .hbm, ⟨22, _⟩ => ⟨S64x512x1024, .f32⟩
  | .hbm, ⟨23, _⟩ => ⟨S64x1x1024, .f32⟩
  | .hbm, ⟨24, _⟩ => ⟨S64x512x1024, .f32⟩
  | .hbm, ⟨25, _⟩ => ⟨S64x512x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x1024_S64x1x1024_0_2 : S64x1024.BroadcastsInDim S64x1x1024 (![0, 2] : Fin 2 → Fin S64x1x1024.rank)
  bcast_S64x1x1024_S64x512x1024_0_1_2 : S64x1x1024.BroadcastsInDim S64x512x1024 (![0, 1, 2] : Fin 3 → Fin S64x512x1024.rank)
  gather_S32x1024x1024_S64x1_S64x1024x1024_12_0_n_n_0_1_110241024_wf : GatherDims.WF S32x1024x1024 S64x1 S64x1024x1024 [1, 2] [0] [] [0] [] 1 ![1, 1024, 1024]
  gather_S32x1024_S64x1_S64x1024_1_0_n_n_0_1_11024_wf : GatherDims.WF S32x1024 S64x1 S64x1024 [1] [0] [] [0] [] 1 ![1, 1024]
  dot_S64x512x1024_S64x1024x1024_S64x512x1024_2_1_1_2_0_0_wf : DotDims.WF S64x512x1024 S64x1024x1024 S64x512x1024 [2] [1] [1] [2] [0] [0]

variable [Facts₀]

def gather_S32x1024x1024_S64x1_S64x1024x1024_12_0_n_n_0_1_110241024 : GatherDims S32x1024x1024 S64x1 S64x1024x1024 where
  offsetDims := [1, 2]
  collapsedSliceDims := [0]
  operandBatchingDims := []
  startIndicesBatchingDims := []
  startIndexMap := [0]
  indexVectorDim := 1
  sliceSizes := ![1, 1024, 1024]
  wf := gather_S32x1024x1024_S64x1_S64x1024x1024_12_0_n_n_0_1_110241024_wf
def gather_S32x1024_S64x1_S64x1024_1_0_n_n_0_1_11024 : GatherDims S32x1024 S64x1 S64x1024 where
  offsetDims := [1]
  collapsedSliceDims := [0]
  operandBatchingDims := []
  startIndicesBatchingDims := []
  startIndexMap := [0]
  indexVectorDim := 1
  sliceSizes := ![1, 1024]
  wf := gather_S32x1024_S64x1_S64x1024_1_0_n_n_0_1_11024_wf
def dot_S64x512x1024_S64x1024x1024_S64x512x1024_2_1_1_2_0_0 : DotDims S64x512x1024 S64x1024x1024 S64x512x1024 where
  lhsContracting := [2]
  rhsContracting := [1]
  lhsNonContracting := [1]
  rhsNonContracting := [2]
  lhsBatch := [0]
  rhsBatch := [0]
  wf := dot_S64x512x1024_S64x1024x1024_S64x512x1024_2_1_1_2_0_0_wf

class Facts : Prop extends Facts₀ where

variable [Facts]
-- ==== Proof.IdRange.lean ====
/-
  WHAT THE PRECONDITION SAYS OF THE CATEGORY IDS.

  The precondition's last conjunct is `all((ids ≥ 0) & (ids < 32))`, comparisons signed. Read back: every id word,
  read as a signed integer, lies in `[0, 32)`; hence read unsigned it is below 32 (a nonnegative signed word is its
  unsigned reading).
-/
import proofs.«422139_j24962349924929_2_alg».proof.Pre_finite_inputs
import proofs.«422139_j24962349924929_2_alg».proof.Proof.Gen.Pre_finite_inputs
import Idealize.ShloMosaic.Lib.ReduceAll
import Idealize.ShloMosaic.Lib.ValueIdx
import Idealize.ShloMosaic.Lib.Pipeline.Value

noncomputable section

namespace Cert.IdRange

open Idealize.ShloMosaic Cert.Pre_finite_inputs

variable {F : FTy → Type} [FloatOps F]

/-- The scalar shape has one index. -/
instance : Subsingleton S_.Idx := ⟨fun a b => funext fun d => d.elim0⟩

/-- A 32-bit word whose signed reading is in `[0, 32)` reads below 32 unsigned, and its signed reading is its
    unsigned one. -/
theorem toNat_of_toInt (w : BitVec 32) (h0 : (0 : Int) ≤ w.toInt) (h1 : w.toInt < 32) :
    w.toNat < 32 ∧ w.toInt = (w.toNat : Int) := by
  have hw := w.isLt
  rw [BitVec.toInt_eq_toNat_cond] at h0 h1 ⊢
  split at h0 <;> rename_i hc
  · rw [if_pos hc] at h1 ⊢
    exact ⟨by omega, rfl⟩
  · rw [if_neg hc] at h1
    omega

/-- Under the precondition every category id, read signed, is in `[0, 32)`. -/
theorem ids_signed (x : FVec F S64x512x1024 .f32) (ids : IVec S64 32) (W : FVec F S32x1024x1024 .f32)
    (b : FVec F S32x1024 .f32) (h : fn (F := F) x ids W b = fun _ => 1#1) (i : S64.Idx) :
    (0 : Int) ≤ (ids i).toInt ∧ (ids i).toInt < 32 := by
  have e := congrFun h ValueIdx.ix0
  dsimp only [fn, fn_part1] at e
  have e2 := (IntOp.andi_eq_one.mp e).2
  have e3 := Host.reduce_andi_all _ _ _ _ _ e2 i
  have e4 := IntOp.andi_eq_one.mp e3
  have h0 := IntOp.cmpi_sge.mp e4.1
  have h1 := IntOp.cmpi_slt.mp e4.2
  have c0 : (broadcastInDim S64 ![] Facts.bcast_S_S64 (constantI S_ 32 0#32) : IVec S64 32) i = 0#32 :=
    broadcastInDim_apply _ Facts.bcast_S_S64 _ i (fun a => a.elim0) (fun a => a.elim0)
  have c32 : (broadcastInDim S64 ![] Facts.bcast_S_S64 (constantI S_ 32 32#32) : IVec S64 32) i = 32#32 :=
    broadcastInDim_apply _ Facts.bcast_S_S64 _ i (fun a => a.elim0) (fun a => a.elim0)
  rw [c0] at h0
  rw [c32] at h1
  exact ⟨by simpa using h0, by simpa using h1⟩

/-- Under the precondition every category id, read unsigned, is below 32. -/
theorem ids_lt (x : FVec F S64x512x1024 .f32) (ids : IVec S64 32) (W : FVec F S32x1024x1024 .f32)
    (b : FVec F S32x1024 .f32) (h : fn (F := F) x ids W b = fun _ => 1#1) (i : S64.Idx) : (ids i).toNat < 32 :=
  (toNat_of_toInt _ (ids_signed x ids W b h i).1 (ids_signed x ids W b h i).2).1

end Cert.IdRange

end
-- ==== Proof.BlocksBits.lean ====
/-
  THE TABLE-INDEXED BLOCKS LIE INSIDE THEIR ARRAYS.

  The weight window and the bias window take their leading block index from the prefetched id table: at grid point `i`
  the block index is `(ids[i], 0, 0)`, the id word read unsigned. The weights are `[32, 1024, 1024]` in blocks
  `[1, 1024, 1024]`, the bias `[32, 1, 1024]` in blocks `[1, 1, 1024]`: block `(p, 0, 0)` is inside exactly when `p < 32`,
  which the precondition gives for every id.
-/
import proofs.«422139_j24962349924929_2_alg».proof.Defs
import proofs.«422139_j24962349924929_2_alg».proof.Proof.Gen.Kernel.Frame
import proofs.«422139_j24962349924929_2_alg».proof.Proof.IdRange

noncomputable section

namespace Cert.Kernel.Blocks

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The table the region reads is the id argument as launched (no host operation writes it). -/
theorem tbl_eq : (tbl m 0 : IVec S64 32) = m (((0 : Dev nD) : Thread nD τ).loc main_arg1) :=
  V_main_arg1 m 0

/-- The word an index map loads off a table whose words are all below 32 is below 32. -/
theorem at_lt (pf : pre0.Contents (Elt F)) (hpf : ∀ j : S64.Idx, ((pf 0 : IVec S64 32) j).toNat < 32)
    (r : Rect (pre0.ref 0).ty.shape) (h1 : r.shape.numel = 1) : (pf.at 0 r h1 : BitVec 32).toNat < 32 :=
  hpf _

/-- A leading block index below 32 (the others zero) puts a weight block inside the weights. -/
theorem w_inb (pf : pre0.Contents (Elt F)) (hpf : ∀ j : S64.Idx, ((pf 0 : IVec S64 32) j).toNat < 32) (i : grid0.Coords) :
    ∀ a, (cc0_transform_1 Facts₀.k0_off1_inb Facts₀.numel1_S1 pf i a + 1) * S1x1024x1024.size a ≤ S32x1024x1024.size a := by
  intro a
  have hlt := at_lt pf hpf
  match a with
  | ⟨0, _⟩ =>
    show ((pf.at 0 _ _ : BitVec 32).toNat + 1) * 1 ≤ 32
    have := hlt (Rect.unit (s := S64) ![(Scalar.indexCast (BitVec.ofNat 32 (i 0).val)).toNat] S1.size (Facts₀.k0_off1_inb i)) Facts₀.numel1_S1
    omega
  | ⟨1, _⟩ => show ((0#32 : BitVec 32).toNat + 1) * 1024 ≤ 1024; decide
  | ⟨2, _⟩ => show ((0#32 : BitVec 32).toNat + 1) * 1024 ≤ 1024; decide

/-- Likewise a bias block inside the bias rows. -/
theorem b_inb (pf : pre0.Contents (Elt F)) (hpf : ∀ j : S64.Idx, ((pf 0 : IVec S64 32) j).toNat < 32) (i : grid0.Coords) :
    ∀ a, (cc0_transform_2 Facts₀.k0_off1_inb Facts₀.numel1_S1 pf i a + 1) * S1x1x1024.size a ≤ S32x1x1024.size a := by
  intro a
  have hlt := at_lt pf hpf
  match a with
  | ⟨0, _⟩ =>
    show ((pf.at 0 _ _ : BitVec 32).toNat + 1) * 1 ≤ 32
    have := hlt (Rect.unit (s := S64) ![(Scalar.indexCast (BitVec.ofNat 32 (i 0).val)).toNat] S1.size (Facts₀.k0_off1_inb i)) Facts₀.numel1_S1
    omega
  | ⟨1, _⟩ => show ((0#32 : BitVec 32).toNat + 1) * 1 ≤ 1; decide
  | ⟨2, _⟩ => show ((0#32 : BitVec 32).toNat + 1) * 1024 ≤ 1024; decide

/-- Under the precondition the table's words are all below 32. -/
theorem tbl_lt (m : (ℓ : Loc nD τ sig) → Buf (Elt Bits) ℓ) (h : Cert.Pre_Kernel m) (j : S64.Idx) : ((tbl m 0 : IVec S64 32) j).toNat < 32 := by
  rw [tbl_eq]
  exact Cert.IdRange.ids_lt _ _ _ _ (h 0) j

/-- The pipeline's side condition on the tables, from the precondition: both table-indexed windows stay inside
    their arrays at every grid point, and their element type is one word wide. -/
theorem ok_of_pre (m : (ℓ : Loc nD τ sig) → Buf (Elt Bits) ℓ) (h : Cert.Pre_Kernel m) : Ok m :=
  ⟨fun i => ⟨w_inb (tbl m) (tbl_lt m h) i, Or.inl rfl⟩, fun i => ⟨b_inb (tbl m) (tbl_lt m h) i, Or.inl rfl⟩⟩

end Cert.Kernel.Blocks

end
-- ==== Proof.BlocksIdeal.lean ====
/-
  THE TABLE-INDEXED BLOCKS LIE INSIDE THEIR ARRAYS.

  The weight window and the bias window take their leading block index from the prefetched id table: at grid point `i`
  the block index is `(ids[i], 0, 0)`, the id word read unsigned. The weights are `[32, 1024, 1024]` in blocks
  `[1, 1024, 1024]`, the bias `[32, 1, 1024]` in blocks `[1, 1, 1024]`: block `(p, 0, 0)` is inside exactly when `p < 32`,
  which the precondition gives for every id.
-/
import proofs.«422139_j24962349924929_2_alg».proof.Defs
import proofs.«422139_j24962349924929_2_alg».proof.Proof.Gen.KernelIdeal.Frame
import proofs.«422139_j24962349924929_2_alg».proof.Proof.IdRange

noncomputable section

namespace Cert.KernelIdeal.Blocks

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The table the region reads is the id argument as launched (no host operation writes it). -/
theorem tbl_eq : (tbl m 0 : IVec S64 32) = m (((0 : Dev nD) : Thread nD τ).loc main_arg1) :=
  V_main_arg1 m 0

/-- The word an index map loads off a table whose words are all below 32 is below 32. -/
theorem at_lt (pf : pre0.Contents (Elt F)) (hpf : ∀ j : S64.Idx, ((pf 0 : IVec S64 32) j).toNat < 32)
    (r : Rect (pre0.ref 0).ty.shape) (h1 : r.shape.numel = 1) : (pf.at 0 r h1 : BitVec 32).toNat < 32 :=
  hpf _

/-- A leading block index below 32 (the others zero) puts a weight block inside the weights. -/
theorem w_inb (pf : pre0.Contents (Elt F)) (hpf : ∀ j : S64.Idx, ((pf 0 : IVec S64 32) j).toNat < 32) (i : grid0.Coords) :
    ∀ a, (cc0_transform_1 Facts₀.k0_off1_inb Facts₀.numel1_S1 pf i a + 1) * S1x1024x1024.size a ≤ S32x1024x1024.size a := by
  intro a
  have hlt := at_lt pf hpf
  match a with
  | ⟨0, _⟩ =>
    show ((pf.at 0 _ _ : BitVec 32).toNat + 1) * 1 ≤ 32
    have := hlt (Rect.unit (s := S64) ![(Scalar.indexCast (BitVec.ofNat 32 (i 0).val)).toNat] S1.size (Facts₀.k0_off1_inb i)) Facts₀.numel1_S1
    omega
  | ⟨1, _⟩ => show ((0#32 : BitVec 32).toNat + 1) * 1024 ≤ 1024; decide
  | ⟨2, _⟩ => show ((0#32 : BitVec 32).toNat + 1) * 1024 ≤ 1024; decide

/-- Likewise a bias block inside the bias rows. -/
theorem b_inb (pf : pre0.Contents (Elt F)) (hpf : ∀ j : S64.Idx, ((pf 0 : IVec S64 32) j).toNat < 32) (i : grid0.Coords) :
    ∀ a, (cc0_transform_2 Facts₀.k0_off1_inb Facts₀.numel1_S1 pf i a + 1) * S1x1x1024.size a ≤ S32x1x1024.size a := by
  intro a
  have hlt := at_lt pf hpf
  match a with
  | ⟨0, _⟩ =>
    show ((pf.at 0 _ _ : BitVec 32).toNat + 1) * 1 ≤ 32
    have := hlt (Rect.unit (s := S64) ![(Scalar.indexCast (BitVec.ofNat 32 (i 0).val)).toNat] S1.size (Facts₀.k0_off1_inb i)) Facts₀.numel1_S1
    omega
  | ⟨1, _⟩ => show ((0#32 : BitVec 32).toNat + 1) * 1 ≤ 1; decide
  | ⟨2, _⟩ => show ((0#32 : BitVec 32).toNat + 1) * 1024 ≤ 1024; decide

/-- Under the precondition the table's words are all below 32. -/
theorem tbl_lt (m : (ℓ : Loc nD τ sig) → Buf (Elt Ideal) ℓ) (h : Cert.Pre_KernelIdeal m) (j : S64.Idx) : ((tbl m 0 : IVec S64 32) j).toNat < 32 := by
  rw [tbl_eq]
  exact Cert.IdRange.ids_lt _ _ _ _ (h 0) j

/-- The pipeline's side condition on the tables, from the precondition: both table-indexed windows stay inside
    their arrays at every grid point, and their element type is one word wide. -/
theorem ok_of_pre (m : (ℓ : Loc nD τ sig) → Buf (Elt Ideal) ℓ) (h : Cert.Pre_KernelIdeal m) : Ok m :=
  ⟨fun i => ⟨w_inb (tbl m) (tbl_lt m h) i, Or.inl rfl⟩, fun i => ⟨b_inb (tbl m) (tbl_lt m h) i, Or.inl rfl⟩⟩

end Cert.KernelIdeal.Blocks

end
-- ==== Proof.BodyIdeal.lean ====
/-
  WHAT THE BODY LEAVES IN THE OUTPUT BLOCK, entry by entry.

  The body loads the row block `x₀ : [1, 512, 1024]`, the weight block `w₀ : [1, 1024, 1024]` and the bias block
  `b₀ : [1, 1, 1024]`, and stores ONE value over the whole output block: the matrix product of the row block by the
  weight block (into a zero accumulator) plus the bias row laid under every row. So entry `(0, t, o)` of the block is

      ∑ₖ x₀[0, t, k] · w₀[0, k, o] + b₀[0, 0, o]

  over the extended reals, where the two roundings to the narrower float format are the identity.
-/
import proofs.«422139_j24962349924929_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx Idealize.SL.Sem

theorem hz : (![0, 0, 0] : Fin 3 → Nat) = fun _ => 0 := funext fun a => by fin_cases a <;> rfl

section AnyF
variable {F : FTy → Type} [FloatOps F]

/-- The output's staging buffer after the body holds the body's one stored value of the three loaded blocks: the
    store covers the block, and each load reads its whole buffer. -/
theorem out_eq (c : Dev nD) (i : grid0.Coords) (arg2 : Memref sig .tc .vmem S1x512x1024 .f32) (harg2 : arg2.IsWhole)
    (arg3 : Memref sig .tc .vmem S1x1024x1024 .f32) (harg3 : arg3.IsWhole) (arg4 : Memref sig .tc .vmem S1x1x1024 .f32) (harg4 : arg4.IsWhole)
    (arg5 : Memref sig .tc .vmem S1x512x1024 .f32) (harg5 : arg5.IsWhole)
    (x0 : Vec F S1x512x1024 .f32) (x1 : Vec F S1x1024x1024 .f32) (x2 : Vec F S1x1x1024 .f32) (xt0 : TbBuf0 (F := F) c tbM0_0) :
    out0_A_3 c i arg2 harg2 arg3 harg3 arg4 harg4 arg5 harg5 x0 x1 x2 xt0 = k0_pay1 x0 x1 x2 := by
  unfold out0_A_3
  rw [View.read_writes_eq_canon _ _ _ (cover0_A_3 c i arg2 harg2 arg3 harg3 arg4 harg4 arg5 harg5 x0 x1 x2 xt0)]
  unfold kernelRun0_A
  dsimp only
  sl_unfold_words
  rw [View.canon_unit_zero hz]
  simp only [View.readAt_eq_ld, harg2.read_unread, harg3.read_unread, harg4.read_unread,
    View.ld_unit_zero (S := S1x512x1024) hz, View.ld_unit_zero (S := S1x1024x1024) hz, View.ld_unit_zero (S := S1x1x1024) hz]

end AnyF

/-! ## The matrix product read at an entry -/

theorem lhs_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a `[512, 1024]` by a `[1024, 1024]` matrix into a zero accumulator, at entry `(t, o)`: the sum over
    the shared axis. -/
theorem matmul_apply {φ₁ φ₂ : FTy} (l : FVec Ideal S512x1024 φ₁) (r : FVec Ideal S1024x1024 φ₂) (t : Fin 512) (o : Fin 1024) :
    matmul (F := Ideal) dot_S512x1024_S1024x1024_S512x1024_1_0_0_1_n_n none l r (constant (F := Ideal) S512x1024 .f32 0x00000000#32) (ix2 t o)
      = ∑ k : Fin 1024, l (ix2 t k) * r (ix2 k o) := by
  show FloatOps.matmul dot_S512x1024_S1024x1024_S512x1024_1_0_0_1_n_n none l r (constant (F := Ideal) S512x1024 .f32 0x00000000#32) (ix2 t o) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 t o) ((ValueIdx.contrEquiv1 dot_S512x1024_S1024x1024_S512x1024_1_0_0_1_n_n 1024 rfl rfl).symm k) = ix2 t k := funext fun a => Fin.ext (by
    match a with
    | ⟨0, _⟩ => exact lhs_0 _ _
    | ⟨1, _⟩ => exact (lhs_1 _ _).trans hk)
  have er : dot_S512x1024_S1024x1024_S512x1024_1_0_0_1_n_n.rhsIdx (ix2 t o) ((ValueIdx.contrEquiv1 dot_S512x1024_S1024x1024_S512x1024_1_0_0_1_n_n 1024 rfl rfl).symm k) = ix2 k o := funext fun a => Fin.ext (by
    match a with
    | ⟨0, _⟩ => exact (rhs_0 _ _).trans hk
    | ⟨1, _⟩ => exact rhs_1 _ _)
  rw [el, er]

/-- THE BLOCK'S ENTRY: row `t` of the row block against column `o` of the weight block, plus the bias at `o`. -/
theorem pay_apply (v0 : Vec Ideal S1x512x1024 .f32) (v3 : Vec Ideal S1x1024x1024 .f32) (v7 : Vec Ideal S1x1x1024 .f32)
    (u : Fin 1) (t : Fin 512) (o : Fin 1024) :
    k0_pay1 (F := Ideal) v0 v3 v7 (ix3 u t o)
      = (∑ k : Fin 1024, v0 (ix3 (0 : Fin 1) t k) * v3 (ix3 (0 : Fin 1) k o)) + v7 (ix3 (0 : Fin 1) (0 : Fin 1) o) := by
  unfold k0_pay1
  rw [shapeCast_ab_1ab_apply, addf_apply, matmul_apply, broadcastTo_1b_ab_apply, shapeCast_1ab_ab_apply]
  congr 1
  refine Finset.sum_congr rfl fun k _ => ?_
  rw [truncf_apply, truncf_apply, shapeCast_1ab_ab_apply, shapeCast_1ab_ab_apply]

end Cert.KernelIdeal.Body

end
-- ==== Proof.Affine.lean ====
/-
  THE PER-CATEGORY AFFINE MAP, as one function of the four argument arrays over the extended reals.

  Sixty-four batch elements, each a [512, 1024] block of rows; thirty-two categories, each a [1024, 1024] weight matrix
  and a [1024] bias row; batch element `b` carries a category id, and

      y[b, t, o] = ∑ₖ x[b, t, k] · W[cat b, k, o] + bias[cat b, o].

  `cat b` is the id's word read as a natural number and capped at the last category: a total function of the word,
  which on an id in `[0, 32)` is the id itself — whether the word is read unsigned (a block index), or signed, shifted
  when negative and clamped (NumPy's indexing).
-/
import Idealize.ShloMosaic.PureOps.Ideal
import Idealize.ShloMosaic.Lib.ValueIdx

noncomputable section

open scoped BigOperators

namespace Cert.Affine

open Idealize.ShloMosaic Idealize.ShloMosaic.ValueIdx

/-- The category of batch element `b`: its id word as a natural number, capped at 31. -/
def cat (ids : IVec ⟨1, ![64]⟩ 32) (b : Fin 64) : Fin 32 := ⟨min (ids (ix1 b)).toNat 31, by omega⟩

/-- On an id below 32 the category is the id's word read unsigned. -/
theorem cat_val_of_lt (ids : IVec ⟨1, ![64]⟩ 32) (b : Fin 64) (h : (ids (ix1 b)).toNat < 32) :
    (cat ids b).val = (ids (ix1 b)).toNat := by
  show min _ 31 = _
  omega

/-- The per-category affine map: row `(b, t)` of `x` times the weight matrix of `b`'s category, plus that category's bias. -/
def affine (x : FVec Ideal ⟨3, ![64, 512, 1024]⟩ .f32) (ids : IVec ⟨1, ![64]⟩ 32)
    (W : FVec Ideal ⟨3, ![32, 1024, 1024]⟩ .f32) (bias : FVec Ideal ⟨2, ![32, 1024]⟩ .f32) :
    FVec Ideal ⟨3, ![64, 512, 1024]⟩ .f32 :=
  fun j => (∑ k : Fin 1024, x (ix3 (j 0) (j 1) k) * W (ix3 (cat ids (j 0)) k (j 2))) + bias (ix2 (cat ids (j 0)) (j 2))

theorem affine_apply (x : FVec Ideal ⟨3, ![64, 512, 1024]⟩ .f32) (ids : IVec ⟨1, ![64]⟩ 32)
    (W : FVec Ideal ⟨3, ![32, 1024, 1024]⟩ .f32) (bias : FVec Ideal ⟨2, ![32, 1024]⟩ .f32)
    (b : Fin 64) (t : Fin 512) (o : Fin 1024) :
    affine x ids W bias (ix3 b t o)
      = (∑ k : Fin 1024, x (ix3 b t k) * W (ix3 (cat ids b) k o)) + bias (ix2 (cat ids b) o) := rfl

end Cert.Affine

end
-- ==== Proof.ArrayIdeal.lean ====
/-
  THE RESULT ARRAY AFTER THE RUN IS THE PER-CATEGORY AFFINE MAP OF THE ARGUMENTS.

  The grid has one point per batch element `b`. At point `b` the row window holds block `(b, 0, 0)` of `x`, the weight
  window block `(ids[b], 0, 0)` of `W` — the id read off the prefetched table —, the bias window block `(ids[b], 0, 0)`
  of the bias rows recast as `[32, 1, 1024]`, and the output window writes back block `(b, 0, 0)` of the result. With
  every id below 32 the id's word IS its category, so what point `b` writes back is block `b` of the affine map; the 64
  blocks tile the result, one per batch element.
-/
import proofs.«422139_j24962349924929_2_alg».proof.Defs
import proofs.«422139_j24962349924929_2_alg».proof.Proof.BodyIdeal
import proofs.«422139_j24962349924929_2_alg».proof.Proof.Affine
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Arr

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (hO : Ok m)

/-! ## The index maps -/

/-- The grid's one coordinate is the point's number. -/
theorem coord_val : ∀ t : Fin grid0.N, ((grid0.coords t) (0 : Fin 1)).val = t.val := by decide +kernel

/-- The row window and the output window sit at block `(t, 0, 0)` at point `t`. -/
theorem idx_x : ∀ t : Fin (cfgM m hO).N, ((cfgM m hO).win 0).index t (0 : Fin 3) = t.val
    ∧ ((cfgM m hO).win 0).index t (1 : Fin 3) = 0 ∧ ((cfgM m hO).win 0).index t (2 : Fin 3) = 0 :=
  (by decide +kernel : ∀ t : Fin grid0.N, cc0_transform_0 (grid0.coords t) (0 : Fin 3) = t.val
    ∧ cc0_transform_0 (grid0.coords t) (1 : Fin 3) = 0 ∧ cc0_transform_0 (grid0.coords t) (2 : Fin 3) = 0)
theorem idx_o : ∀ t : Fin (cfgM m hO).N, ((cfgM m hO).win 3).index t (0 : Fin 3) = t.val
    ∧ ((cfgM m hO).win 3).index t (1 : Fin 3) = 0 ∧ ((cfgM m hO).win 3).index t (2 : Fin 3) = 0 :=
  (by decide +kernel : ∀ t : Fin grid0.N, cc0_transform_3 (grid0.coords t) (0 : Fin 3) = t.val
    ∧ cc0_transform_3 (grid0.coords t) (1 : Fin 3) = 0 ∧ cc0_transform_3 (grid0.coords t) (2 : Fin 3) = 0)

/-- The word an index map loads off the table at grid coordinate `i` is the table's word `i`. -/
theorem at_eq (pf : pre0.Contents (Elt Ideal)) (i : grid0.Coords) (b : Fin 64) (hb : (i 0).val = b.val) :
    (pf.at 0 (Rect.unit (s := S64) ![(Scalar.indexCast (BitVec.ofNat 32 (i 0).val)).toNat] S1.size (Facts₀.k0_off1_inb i)) Facts₀.numel1_S1 : BitVec 32)
      = (pf 0 : IVec S64 32) (ix1 b) := by
  show (pf 0 : IVec S64 32) _ = _
  congr 1
  funext d
  apply Fin.ext
  match d with
  | ⟨0, _⟩ =>
    have h2 : (Scalar.indexCast (BitVec.ofNat 32 (i 0).val)).toNat = (i 0).val := by
      show (BitVec.ofNat 32 (i 0).val).toNat = (i 0).val
      rw [BitVec.toNat_ofNat]
      have : (i 0).val < 64 := (i 0).isLt
      omega
    have key : ∀ y : Fin 1, (Scalar.indexCast (BitVec.ofNat 32 (i 0).val)).toNat + 1 * y.val = b.val := fun y => by
      have := y.isLt
      omega
    exact key _

/-- At grid coordinate `i` the weight window sits at block `(ids[i], 0, 0)`, the id's word read unsigned. -/
theorem tform_w (pf : pre0.Contents (Elt Ideal)) (i : grid0.Coords) (b : Fin 64) (hb : (i 0).val = b.val) :
    cc0_transform_1 Facts₀.k0_off1_inb Facts₀.numel1_S1 pf i (0 : Fin 3) = ((pf 0 : IVec S64 32) (ix1 b)).toNat
    ∧ cc0_transform_1 Facts₀.k0_off1_inb Facts₀.numel1_S1 pf i (1 : Fin 3) = 0
    ∧ cc0_transform_1 Facts₀.k0_off1_inb Facts₀.numel1_S1 pf i (2 : Fin 3) = 0 :=
  ⟨congrArg BitVec.toNat (at_eq pf i b hb), rfl, rfl⟩

/-- and so does the bias window. -/
theorem tform_b (pf : pre0.Contents (Elt Ideal)) (i : grid0.Coords) (b : Fin 64) (hb : (i 0).val = b.val) :
    cc0_transform_2 Facts₀.k0_off1_inb Facts₀.numel1_S1 pf i (0 : Fin 3) = ((pf 0 : IVec S64 32) (ix1 b)).toNat
    ∧ cc0_transform_2 Facts₀.k0_off1_inb Facts₀.numel1_S1 pf i (1 : Fin 3) = 0
    ∧ cc0_transform_2 Facts₀.k0_off1_inb Facts₀.numel1_S1 pf i (2 : Fin 3) = 0 :=
  ⟨congrArg BitVec.toNat (at_eq pf i b hb), rfl, rfl⟩

theorem idx_w (t : Fin (cfgM m hO).N) (b : Fin 64) (hb : t.val = b.val) :
    ((cfgM m hO).win 1).index t (0 : Fin 3) = ((tbl m 0 : IVec S64 32) (ix1 b)).toNat
    ∧ ((cfgM m hO).win 1).index t (1 : Fin 3) = 0 ∧ ((cfgM m hO).win 1).index t (2 : Fin 3) = 0 :=
  tform_w (tbl m) (grid0.coords t) b ((coord_val t).trans hb)

theorem idx_b (t : Fin (cfgM m hO).N) (b : Fin 64) (hb : t.val = b.val) :
    ((cfgM m hO).win 2).index t (0 : Fin 3) = ((tbl m 0 : IVec S64 32) (ix1 b)).toNat
    ∧ ((cfgM m hO).win 2).index t (1 : Fin 3) = 0 ∧ ((cfgM m hO).win 2).index t (2 : Fin 3) = 0 :=
  tform_b (tbl m) (grid0.coords t) b ((coord_val t).trans hb)

include hO in
/-- The side condition on the table says every word of it is below 32. -/
theorem word_lt (b : Fin 64) : ((tbl m 0 : IVec S64 32) (ix1 b)).toNat < 32 := by
  have hN : grid0.N = 64 := N_0
  obtain ⟨h, -⟩ := hO.1 (grid0.coords ⟨b.val, by rw [hN]; exact b.isLt⟩)
  have h0 : (cc0_transform_1 Facts₀.k0_off1_inb Facts₀.numel1_S1 (tbl m) (grid0.coords ⟨b.val, by rw [hN]; exact b.isLt⟩) (0 : Fin 3) + 1) * 1 ≤ 32 := h 0
  have e := (tform_w (tbl m) (grid0.coords ⟨b.val, by rw [hN]; exact b.isLt⟩) b (coord_val _)).1
  omega

include hO in
/-- The table is the id argument as launched, and a word of it below 32 is its category. -/
theorem word_cat (c : Dev nD) (b : Fin 64) :
    ((tbl m 0 : IVec S64 32) (ix1 b)).toNat = (Cert.Affine.cat (m ((c : Thread nD τ).loc main_arg1)) b).val := by
  have hlt := word_lt m hO b
  have e : (tbl m 0 : IVec S64 32) = m ((c : Thread nD τ).loc main_arg1) := (V_pre m c 0).symm.trans (V_main_arg1 m c)
  rw [e] at hlt ⊢
  exact (Cert.Affine.cat_val_of_lt _ b hlt).symm

/-! ## The windows' blocks, entry by entry -/

/-- The row block at point `t`: rows of batch element `t`. -/
theorem blk_x (c : Dev nD) (t : Fin (cfgM m hO).N) (b : Fin 64) (hb : t.val = b.val) (r : Fin 512) (k : Fin 1024) :
    (iblk m hO c 0 t : Vec Ideal S1x512x1024 .f32) (ix3 (0 : Fin 1) r k) = m ((c : Thread nD τ).loc main_arg0) (ix3 b r k) := by
  unfold iblk
  show V m c main_arg0 ((((cfgM m hO).win 0).blk t).view.emb (ix3 (0 : Fin 1) r k)) = _
  rw [V_main_arg0]
  congr 1
  funext a
  apply Fin.ext
  obtain ⟨e0, e1, e2⟩ := idx_x m hO t
  match a with
  | ⟨0, _⟩ => show ((cfgM m hO).win 0).index t (0 : Fin 3) * 1 + 1 * 0 = b.val; omega
  | ⟨1, _⟩ => show ((cfgM m hO).win 0).index t (1 : Fin 3) * 512 + 1 * r.val = r.val; omega
  | ⟨2, _⟩ => show ((cfgM m hO).win 0).index t (2 : Fin 3) * 1024 + 1 * k.val = k.val; omega

/-- The weight block at point `t`: the weight matrix the table's word `t` names. -/
theorem blk_w (c : Dev nD) (t : Fin (cfgM m hO).N) (b : Fin 64) (hb : t.val = b.val) (p : Fin 32)
    (hp : ((tbl m 0 : IVec S64 32) (ix1 b)).toNat = p.val) (k o : Fin 1024) :
    (iblk m hO c 1 t : Vec Ideal S1x1024x1024 .f32) (ix3 (0 : Fin 1) k o) = m ((c : Thread nD τ).loc main_arg2) (ix3 p k o) := by
  unfold iblk
  show V m c main_arg2 ((((cfgM m hO).win 1).blk t).view.emb (ix3 (0 : Fin 1) k o)) = _
  rw [V_main_arg2]
  congr 1
  funext a
  apply Fin.ext
  obtain ⟨e0, e1, e2⟩ := idx_w m hO t b hb
  match a with
  | ⟨0, _⟩ => show ((cfgM m hO).win 1).index t (0 : Fin 3) * 1 + 1 * 0 = p.val; omega
  | ⟨1, _⟩ => show ((cfgM m hO).win 1).index t (1 : Fin 3) * 1024 + 1 * k.val = k.val; omega
  | ⟨2, _⟩ => show ((cfgM m hO).win 1).index t (2 : Fin 3) * 1024 + 1 * o.val = o.val; omega

/-- The bias rows as the region finds them: the bias argument recast with a unit middle axis. -/
theorem V_bias (c : Dev nD) : (V m c main_v0 : FVec Ideal S32x1x1024 .f32)
    = shapeCast S32x1x1024 (m ((c : Thread nD τ).loc main_arg3)) Facts₀.shapeCasts_S32x1024_S32x1x1024 := by
  dsimp only [V, hostOps0]
  after_results
  rfl

/-- A `[a, b]` array recast as `[a, 1, b]` reads, at `(p, u, o)`, the operand at `(p, o)`. -/
theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (o : Fin b) :
    shapeCast ⟨3, ![a, 1, b]⟩ x h (ix3 p u o) = x (ix2 p o) :=
  shapeCast_apply x h _ _ (by
    have hu : u.val = 0 := by omega
    rw [Shape.rowMajor_val_three, Shape.rowMajor_val_two]
    show p.val * b + o.val = (p.val * 1 + u.val) * b + o.val
    rw [hu, Nat.mul_one, Nat.add_zero])

/-- The bias block at point `t`: the bias row the table's word `t` names. -/
theorem blk_b (c : Dev nD) (t : Fin (cfgM m hO).N) (b : Fin 64) (hb : t.val = b.val) (p : Fin 32)
    (hp : ((tbl m 0 : IVec S64 32) (ix1 b)).toNat = p.val) (o : Fin 1024) :
    (iblk m hO c 2 t : Vec Ideal S1x1x1024 .f32) (ix3 (0 : Fin 1) (0 : Fin 1) o) = m ((c : Thread nD τ).loc main_arg3) (ix2 p o) := by
  unfold iblk
  show (V m c main_v0 : FVec Ideal S32x1x1024 .f32) ((((cfgM m hO).win 2).blk t).view.emb (ix3 (0 : Fin 1) (0 : Fin 1) o)) = _
  rw [V_bias]
  have he : (((cfgM m hO).win 2).blk t).view.emb (ix3 (0 : Fin 1) (0 : Fin 1) o) = ix3 p (0 : Fin 1) o := by
    funext a
    apply Fin.ext
    obtain ⟨e0, e1, e2⟩ := idx_b m hO t b hb
    match a with
    | ⟨0, _⟩ => show ((cfgM m hO).win 2).index t (0 : Fin 3) * 1 + 1 * 0 = p.val; omega
    | ⟨1, _⟩ => show ((cfgM m hO).win 2).index t (1 : Fin 3) * 1 + 1 * 0 = 0; omega
    | ⟨2, _⟩ => show ((cfgM m hO).win 2).index t (2 : Fin 3) * 1024 + 1 * o.val = o.val; omega
  rw [he]
  exact shapeCast_ab_a1b_apply _ _ p 0 o

/-! ## What a point writes back, and the array after the run -/

/-- The per-category affine map of the four arguments as launched. -/
abbrev result (c : Dev nD) : FVec Ideal S64x512x1024 .f32 :=
  Cert.Affine.affine (m ((c : Thread nD τ).loc main_arg0)) (m ((c : Thread nD τ).loc main_arg1))
    (m ((c : Thread nD τ).loc main_arg2)) (m ((c : Thread nD τ).loc main_arg3))

/-- WHAT POINT `t` WRITES BACK is block `t` of the affine map. -/
theorem flushed_eq (c : Dev nD) (t : Fin (cfgM m hO).N) :
    (dats m hO 0 c).flushed 3 t = (((cfgM m hO).win 3).blk t).view.read (Elt Ideal) (result m c) := by
  show ((cfgM m hO).win 3).cut (grid0.coords t) ((dats m hO 0 c).after 3 t) = _
  rw [after0_3]
  have hout : outsAt0 m hO c t = k0_pay1 (F := Ideal) (iblk m hO c 0 t) (iblk m hO c 1 t) (iblk m hO c 2 t) :=
    Cert.KernelIdeal.Body.out_eq c (grid0.coords t) (ms0_0 m hO t) (hs0_0 m hO t) (ms0_1 m hO t) (hs0_1 m hO t)
      (ms0_2 m hO t) (hs0_2 m hO t) (ms0_3 m hO t) (hs0_3 m hO t) (iblk m hO c 0 t) (iblk m hO c 1 t) (iblk m hO c 2 t) (tbl m 0)
  rw [hout]
  have hN : (cfgM m hO).N = 64 := N_0
  obtain ⟨b, hb⟩ : ∃ b : Fin 64, t.val = b.val := ⟨⟨t.val, by have := t.isLt; omega⟩, rfl⟩
  refine funext fun (j : S1x512x1024.Idx) => ?_
  have hj0 : (j 0).val < 1 := (j 0).isLt
  obtain ⟨r, hr⟩ : ∃ r : Fin 512, (j 1).val = r.val := ⟨⟨(j 1).val, (j 1).isLt⟩, rfl⟩
  obtain ⟨o, ho⟩ : ∃ o : Fin 1024, (j 2).val = o.val := ⟨⟨(j 2).val, (j 2).isLt⟩, rfl⟩
  have hx : ((cfgM m hO).win 3).xinj (grid0.coords t) j = ix3 (⟨(j 0).val, hj0⟩ : Fin 1) r o := funext fun a => Fin.ext (by
    match a with
    | ⟨0, _⟩ => rfl
    | ⟨1, _⟩ => exact hr
    | ⟨2, _⟩ => exact ho)
  have he : (((cfgM m hO).win 3).blk t).view.emb j = ix3 b r o := funext fun a => Fin.ext (by
    obtain ⟨e0, e1, e2⟩ := idx_o m hO t
    match a with
    | ⟨0, _⟩ => show ((cfgM m hO).win 3).index t (0 : Fin 3) * 1 + 1 * (j 0).val = b.val; omega
    | ⟨1, _⟩ => show ((cfgM m hO).win 3).index t (1 : Fin 3) * 512 + 1 * (j 1).val = r.val; omega
    | ⟨2, _⟩ => show ((cfgM m hO).win 3).index t (2 : Fin 3) * 1024 + 1 * (j 2).val = o.val; omega)
  refine Eq.trans (congrArg (k0_pay1 (F := Ideal) (iblk m hO c 0 t) (iblk m hO c 1 t) (iblk m hO c 2 t)) hx) ?_
  refine Eq.trans ?_ (congrArg (result m c) he).symm
  refine (Cert.KernelIdeal.Body.pay_apply (iblk m hO c 0 t) (iblk m hO c 1 t) (iblk m hO c 2 t) ⟨(j 0).val, hj0⟩ r o).trans ?_
  refine Eq.trans ?_ (Cert.Affine.affine_apply _ _ _ _ b r o).symm
  have hp := word_cat m hO c b
  congr 1
  · refine Finset.sum_congr rfl fun k _ => ?_
    rw [blk_x m hO c t b hb r k, blk_w m hO c t b hb _ hp k o]
  · exact blk_b m hO c t b hb _ hp o

/-- An entry of the result is in point `t`'s block exactly when each coordinate is in the block's range on its axis. -/
theorem mem_blk (t : Fin (cfgM m hO).N) (i : S64x512x1024.Idx) :
    i ∈ (((cfgM m hO).win 3).blk t).view.set ↔ ∀ a : Fin 3, ((cfgM m hO).win 3).index t a * S1x512x1024.size a ≤ (i a).val
      ∧ (i a).val < ((cfgM m hO).win 3).index t a * S1x512x1024.size a + S1x512x1024.size a := by
  show i ∈ ((View.whole main_v1).slice (((cfgM m hO).win 3).rect t)).set ↔ _
  refine (Eq.to_iff (congrArg (fun S => i ∈ S) (View.set_slice_whole main_v1 (((cfgM m hO).win 3).rect t)))).trans ?_
  exact Rect.mem_set_unit

/-- THE RESULT ARRAY after the run is the affine map: point `b`'s block is rows `[b, b + 1)` of the leading axis, and the
    64 points' blocks tile the array. -/
theorem final (c : Dev nD) : (dats m hO 0 c).arrAt 3 (cfgM m hO).N = result m c :=
  (dats m hO 0 c).arrAt_eq_of_cover 3 (result m c) (fun t _ => flushed_eq m hO c t) fun (i : S64x512x1024.Idx) => by
    have hN : (cfgM m hO).N = 64 := N_0
    have hi0 : (i 0).val < 64 := (i 0).isLt
    have hi1 : (i 1).val < 512 := (i 1).isLt
    have hi2 : (i 2).val < 1024 := (i 2).isLt
    obtain ⟨t, ht⟩ : ∃ t : Fin (cfgM m hO).N, t.val = (i 0).val := ⟨⟨(i 0).val, by omega⟩, rfl⟩
    refine ⟨t, flush0_3 (adm m hO) t, (mem_blk m hO t i).mpr ?_⟩
    obtain ⟨e0, e1, e2⟩ := idx_o m hO t
    intro a
    match a with
    | ⟨0, _⟩ =>
      show ((cfgM m hO).win 3).index t (0 : Fin 3) * 1 ≤ (i 0).val ∧ (i 0).val < ((cfgM m hO).win 3).index t (0 : Fin 3) * 1 + 1
      omega
    | ⟨1, _⟩ =>
      show ((cfgM m hO).win 3).index t (1 : Fin 3) * 512 ≤ (i 1).val ∧ (i 1).val < ((cfgM m hO).win 3).index t (1 : Fin 3) * 512 + 512
      omega
    | ⟨2, _⟩ =>
      show ((cfgM m hO).win 3).index t (2 : Fin 3) * 1024 ≤ (i 2).val ∧ (i 2).val < ((cfgM m hO).win 3).index t (2 : Fin 3) * 1024 + 1024
      omega

include hO in
/-- THE RUN, READ: every weakly fair execution ends with the result array at the affine map of the arguments as
    launched, and the four arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c))),
      ((h c).2 main_arg3 (by decide : main_arg3 ∈ Pipeline.restRefs sig spec0)).trans (V_main_arg3 m c)⟩)
    (run_main m ρ hO)

end Cert.KernelIdeal.Arr

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.LibGatherMat.lean ====
/-
  READING A GATHER OF MATRICES AT AN INDEX, at any extents.

  A stack of matrices `x : [N, A, B]` gathered at a column of start indices `idx : [E, 1]` (jnp's `x[idx]` over the
  leading axis): the result `[E, A, B]` holds, at `(e, a, b)`, the operand's entry `(a, b)` of the matrix the start
  index `idx[e, 0]` names, that index read as a signed integer and clamped into `[0, N − 1]`.
-/
import Idealize.ShloMosaic.Lib.ValueIdx

noncomputable section

namespace Cert.LibGatherMat

open Idealize.ShloMosaic Idealize.ShloMosaic.ValueIdx

variable {α : Type}

/-- The dimension numbers of a gather of matrices: operand `[N, A, B]`, start indices `[E, 1]`, result `[E, A, B]`; the
    result's axes 1 and 2 are the offset axes, the operand's axis 0 is collapsed and is the one the start index names,
    whole matrices `[1, A, B]` are sliced. -/
abbrev matGatherDims (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE GATHER OF MATRICES READ AT `(e, a, b)`: the stack at matrix `idx[e, 0]` (signed, clamped into `[0, N − 1]`),
    row `a`, column `b`. -/
theorem gather_mats_apply {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (matGatherDims N A B E wf) x idx (ix3 e a b)
      = x (ix3 ⟨min (idx (ix2 e 0)).toInt.toNat (N - 1), by omega⟩ a b) := by
  unfold Host.gather
  congr 1
  funext ax
  refine Fin.ext ?_
  match ax with
  | ⟨0, _⟩ =>
    show (matGatherDims N A B E wf).start (ix3 e a b) idx 0 + (matGatherDims N A B E wf).batchCoord (ix3 e a b) 0
        + (matGatherDims N A B E wf).offCoord (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (matGatherDims N A B E wf).startIndexMap from List.mem_singleton.mpr rfl)]
    have hsi : (matGatherDims N A B E wf).siIdx (ix3 e a b) ⟨List.idxOf (0 : Fin 3) (matGatherDims N A B E wf).startIndexMap,
        List.idxOf_lt_length_iff.2 (List.mem_singleton.mpr rfl)⟩ = ix2 e 0 := by
      funext d; refine Fin.ext ?_
      match d with
      | ⟨0, _⟩ => rfl
      | ⟨1, _⟩ => rfl
    rw [hsi]
    rfl
  | ⟨1, _⟩ =>
    show (matGatherDims N A B E wf).start (ix3 e a b) idx 1 + (matGatherDims N A B E wf).batchCoord (ix3 e a b) 1
        + (matGatherDims N A B E wf).offCoord (ix3 e a b) 1 = _
    rw [GatherDims.batchCoord_eq_zero _ _ _ List.not_mem_nil]
    unfold GatherDims.start
    rw [dif_neg (show (1 : Fin 3) ∉ (matGatherDims N A B E wf).startIndexMap from
      fun h => absurd (congrArg Fin.val (List.mem_singleton.mp h)) Nat.one_ne_zero)]
    simp only [Nat.add_zero, Nat.zero_add]
    rfl
  | ⟨2, _⟩ =>
    show (matGatherDims N A B E wf).start (ix3 e a b) idx 2 + (matGatherDims N A B E wf).batchCoord (ix3 e a b) 2
        + (matGatherDims N A B E wf).offCoord (ix3 e a b) 2 = _
    rw [GatherDims.batchCoord_eq_zero _ _ _ List.not_mem_nil]
    unfold GatherDims.start
    rw [dif_neg (show (2 : Fin 3) ∉ (matGatherDims N A B E wf).startIndexMap from
      fun h => absurd (congrArg Fin.val (List.mem_singleton.mp h)) (Nat.succ_ne_zero 1))]
    simp only [Nat.add_zero, Nat.zero_add]
    rfl

end Cert.LibGatherMat

end
-- ==== Proof.RefAffine.lean ====
/-
  THE REFERENCE COMPUTES THE PER-CATEGORY AFFINE MAP.

  The reference turns each id into a row number the NumPy way — a negative id is shifted up by 32 — and gathers the
  weight matrices and the bias rows at those numbers, a gather clamping its start index into `[0, 31]`; then one batched
  matrix product (batch axis the batch element, contraction over the 1024 inputs) and the bias row added under every row
  of the batch element's block. For an id in `[0, 32)` the shift does not fire and the clamp does nothing: the gathered
  row is the id's own category. So, entry by entry, the reference's result is

      ∑ₖ x[b, t, k] · W[cat b, k, o] + bias[cat b, o].
-/
import proofs.«422139_j24962349924929_2_alg».proof.Proof.Gen.ReferenceIdeal.Read
import proofs.«422139_j24962349924929_2_alg».proof.Proof.Affine
import proofs.«422139_j24962349924929_2_alg».proof.Proof.IdRange
import proofs.«422139_j24962349924929_2_alg».proof.Proof.LibIndexing
import proofs.«422139_j24962349924929_2_alg».proof.Proof.LibGatherMat
import Idealize.ShloMosaic.Lib.ValueIdx

noncomputable section

open scoped BigOperators

namespace Cert.ReferenceIdeal.RefAffine

open Cert.ReferenceIdeal Cert.ReferenceIdeal.Gen Cert.ReferenceIdeal.Read
open Idealize.ShloMosaic Idealize.ShloMosaic.ValueIdx

/-- NumPy's shift of a negative index leaves a nonnegative word alone. -/
theorem wrap_id (w y : BitVec 32) (h0 : (0 : Int) ≤ w.toInt) : Scalar.select (IntOp.cmpi .slt w 0#32) y w = w := by
  have hlt : IntOp.cmpi .slt w 0#32 = 0#1 := by
    refine ValueIdx.eq_zero_of_ne_one fun h => ?_
    rw [IntOp.cmpi_slt, show (0#32 : BitVec 32).toInt = 0 from by decide] at h
    omega
  rw [hlt, ValueIdx.select_zero]

/-- The index the weights are gathered at is the id itself when the id is not negative. -/
theorem rowW_eq (ids : IVec S64 32) (b : Fin 64) (h0 : (0 : Int) ≤ (ids (ix1 b)).toInt) :
    val_main_v5 (F := Ideal) ids (ix2 b 0) = ids (ix1 b) := by
  rw [val_main_v5_apply]
  have e : idx_main_v5 (ix2 b (0 : Fin 1)) = ix1 b := funext fun a => Fin.ext (by match a with | ⟨0, _⟩ => rfl)
  rw [e, val_main_v4_apply, val_main_v1_apply, val_main_v0_apply, val_main_c_apply]
  exact wrap_id _ _ h0

/-- Likewise the index the bias rows are gathered at. -/
theorem rowB_eq (ids : IVec S64 32) (b : Fin 64) (h0 : (0 : Int) ≤ (ids (ix1 b)).toInt) :
    val_main_v12 (F := Ideal) ids (ix2 b 0) = ids (ix1 b) := by
  rw [val_main_v12_apply]
  have e : idx_main_v12 (ix2 b (0 : Fin 1)) = ix1 b := funext fun a => Fin.ext (by match a with | ⟨0, _⟩ => rfl)
  rw [e, val_main_v11_apply, val_main_v8_apply, val_main_v7_apply, val_main_c_1_apply]
  exact wrap_id _ _ h0

/-- A word in `[0, 32)` signed, clamped into `[0, 31]`, is its category. -/
theorem clamp_eq (ids : IVec S64 32) (b : Fin 64) (h0 : (0 : Int) ≤ (ids (ix1 b)).toInt) (h1 : (ids (ix1 b)).toInt < 32) :
    min (ids (ix1 b)).toInt.toNat (32 - 1) = (Cert.Affine.cat ids b).val := by
  have hn := (Cert.IdRange.toNat_of_toInt _ h0 h1).2
  show _ = min (ids (ix1 b)).toNat 31
  rw [hn]
  simp

/-- The gathered weights at `(b, k, o)`: the weight matrix of `b`'s category at `(k, o)`. -/
theorem gatherW_apply (ids : IVec S64 32) (W : FVec Ideal S32x1024x1024 .f32) (b : Fin 64) (k o : Fin 1024)
    (h0 : (0 : Int) ≤ (ids (ix1 b)).toInt) (h1 : (ids (ix1 b)).toInt < 32) :
    val_main_v6 (F := Ideal) ids W (ix3 b k o) = W (ix3 (Cert.Affine.cat ids b) k o) := by
  unfold val_main_v6
  refine (Cert.LibGatherMat.gather_mats_apply (by decide) Facts₀.gather_S32x1024x1024_S64x1_S64x1024x1024_12_0_n_n_0_1_110241024_wf W (val_main_v5 (F := Ideal) ids) b k o).trans ?_
  congr 1
  have hr : (⟨min (val_main_v5 (F := Ideal) ids (ix2 b 0)).toInt.toNat (32 - 1), by omega⟩ : Fin 32) = Cert.Affine.cat ids b :=
    Fin.ext (by
      show min (val_main_v5 (F := Ideal) ids (ix2 b 0)).toInt.toNat (32 - 1) = _
      rw [rowW_eq ids b h0]; exact clamp_eq ids b h0 h1)
  rw [hr]

/-- The gathered bias rows at `(b, o)`: the bias row of `b`'s category at `o`. -/
theorem gatherB_apply (ids : IVec S64 32) (bias : FVec Ideal S32x1024 .f32) (b : Fin 64) (o : Fin 1024)
    (h0 : (0 : Int) ≤ (ids (ix1 b)).toInt) (h1 : (ids (ix1 b)).toInt < 32) :
    val_main_v13 (F := Ideal) ids bias (ix2 b o) = bias (ix2 (Cert.Affine.cat ids b) o) := by
  unfold val_main_v13
  refine (Cert.LibIndexing.gather_rows_apply (by decide) Facts₀.gather_S32x1024_S64x1_S64x1024_1_0_n_n_0_1_11024_wf bias (val_main_v12 (F := Ideal) ids) b o).trans ?_
  congr 1
  have hr : (⟨min (val_main_v12 (F := Ideal) ids (ix2 b 0)).toInt.toNat (32 - 1), by omega⟩ : Fin 32) = Cert.Affine.cat ids b :=
    Fin.ext (by
      show min (val_main_v12 (F := Ideal) ids (ix2 b 0)).toInt.toNat (32 - 1) = _
      rw [rowB_eq ids b h0]; exact clamp_eq ids b h0 h1)
  rw [hr]

/-- THE REFERENCE'S RESULT is the per-category affine map of its four arguments, when every id is in `[0, 32)`. -/
theorem ref_eq (x : FVec Ideal S64x512x1024 .f32) (ids : IVec S64 32) (W : FVec Ideal S32x1024x1024 .f32)
    (bias : FVec Ideal S32x1024 .f32) (hids : ∀ i : S64.Idx, (0 : Int) ≤ (ids i).toInt ∧ (ids i).toInt < 32) :
    val_main_v17 (F := Ideal) x ids W bias = Cert.Affine.affine x ids W bias := by
  funext i
  obtain ⟨b, t, o, rfl⟩ : ∃ (b : Fin 64) (t : Fin 512) (o : Fin 1024), i = ix3 b t o := ⟨i 0, i 1, i 2, eq_ix3 i⟩
  have h0 := (hids (ix1 b)).1
  have h1 := (hids (ix1 b)).2
  rw [val_main_v17_apply, val_main_v14_apply, val_main_v16_apply, val_main_v15_apply, Cert.Affine.affine_apply]
  have eb : idx_main_v15 (idx_main_v16 (ix3 b t o)) = ix2 b o := funext fun a => Fin.ext (by
    match a with
    | ⟨0, _⟩ => rfl
    | ⟨1, _⟩ => rfl)
  rw [eb, gatherB_apply ids bias b o h0 h1]
  show _ + _ = _ + _
  congr 1
  refine Finset.sum_congr rfl fun k _ => ?_
  have el : lidx_main_v14 (ix3 b t o) k = ix3 b t k := funext fun a => Fin.ext (by
    match a with
    | ⟨0, _⟩ => rfl
    | ⟨1, _⟩ => rfl
    | ⟨2, _⟩ => rfl)
  have er : ridx_main_v14 (ix3 b t o) k = ix3 b k o := funext fun a => Fin.ext (by
    match a with
    | ⟨0, _⟩ => rfl
    | ⟨1, _⟩ => rfl
    | ⟨2, _⟩ => rfl)
  rw [el, er, gatherW_apply ids W b k o h0 h1]

end Cert.ReferenceIdeal.RefAffine

end
-- ==== Proof.lean ====
/-
  A PER-CATEGORY LINEAR LAYER: the kernel and its reference compute one function.

  Inputs: `x : [64, 512, 1024]` (64 batch elements of 512 rows), category ids `ids : [64]`, weights
  `W : [32, 1024, 1024]` and biases `[32, 1024]`, one matrix and one row per category. Both programs compute

      y[b, t, o] = ∑ₖ x[b, t, k] · W[ids b, k, o] + bias[ids b, o].

  The kernel walks a grid of 64 points, one per batch element; at point `b` its weight and bias windows are placed at
  the block the id `ids[b]` names (the id is prefetched and read unsigned as a block index), and the body multiplies
  the row block by that weight matrix and adds that bias row. The reference gathers the 64 weight matrices and bias
  rows by id (NumPy's indexing: a negative id shifted by 32, the start index clamped into range), then takes one batched
  product and adds the bias. The precondition keeps every float finite and every id in `[0, 32)`: outside that range a
  block index leaves its array, and inside it the id read unsigned, the shifted id and the clamped id are one number.

  Frames: the kernel's two (word-level and over the extended reals) are the generated frame under the side condition
  that the table-indexed blocks stay inside their arrays, which the id range gives. The reference's is its run.
  The idealization rewrote nothing. Over the extended reals the two results agree entry by entry: the body's product
  into a zero accumulator is the plain sum, the format changes are the identity, and sums and products are taken in the
  same order of terms, so no law beyond reading both sides at an entry is used.
-/
import proofs.«422139_j24962349924929_2_alg».proof.Defs
import proofs.«422139_j24962349924929_2_alg».proof.Proof.Gen.Kernel
import proofs.«422139_j24962349924929_2_alg».proof.Proof.Gen.Kernel.Skeleton
import proofs.«422139_j24962349924929_2_alg».proof.Proof.Gen.Kernel.Launch
import proofs.«422139_j24962349924929_2_alg».proof.Proof.Gen.Kernel.Points
import proofs.«422139_j24962349924929_2_alg».proof.Proof.Gen.Kernel.Frame
import proofs.«422139_j24962349924929_2_alg».proof.Proof.Gen.KernelIdeal
import proofs.«422139_j24962349924929_2_alg».proof.Proof.Gen.KernelIdeal.Skeleton
import proofs.«422139_j24962349924929_2_alg».proof.Proof.Gen.KernelIdeal.Launch
import proofs.«422139_j24962349924929_2_alg».proof.Proof.Gen.KernelIdeal.Points
import proofs.«422139_j24962349924929_2_alg».proof.Proof.Gen.KernelIdeal.Frame
import proofs.«422139_j24962349924929_2_alg».proof.Proof.Gen.ReferenceIdeal
import proofs.«422139_j24962349924929_2_alg».proof.Proof.Gen.ReferenceIdeal.Run
import proofs.«422139_j24962349924929_2_alg».proof.Proof.Gen.ReferenceIdeal.Read
import proofs.«422139_j24962349924929_2_alg».proof.Proof.Gen.Pre_finite_inputs
import proofs.«422139_j24962349924929_2_alg».proof.Proof.IdRange
import proofs.«422139_j24962349924929_2_alg».proof.Proof.BlocksBits
import proofs.«422139_j24962349924929_2_alg».proof.Proof.BlocksIdeal
import proofs.«422139_j24962349924929_2_alg».proof.Proof.ArrayIdeal
import proofs.«422139_j24962349924929_2_alg».proof.Proof.RefAffine
import Idealize.ShloMosaic.Adequacy
import Idealize.ShloMosaic.Init

noncomputable section

namespace Cert.Proof

open Idealize.ShloMosaic Idealize.SL.Sem

/-- The word-level kernel runs and keeps its arguments: the id range puts every table-indexed block inside its array. -/
theorem frame_k : Cert.frame_Kernel := fun m ρ h => Cert.Kernel.Gen.frame m ρ (Cert.Kernel.Blocks.ok_of_pre m h)

/-- So does the kernel read over the extended reals. -/
theorem frame_ki : Cert.frame_KernelIdeal := fun m ρ h => Cert.KernelIdeal.Gen.frame m ρ (Cert.KernelIdeal.Blocks.ok_of_pre m h)

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the per-category affine map of the arguments: the kernel block by block over its grid, the
    reference through its two gathers; the ids agree, and under the precondition every id is in `[0, 32)`. -/
theorem algebraic : Cert.algebraic_KernelIdeal_ReferenceIdeal := by
  intro m ρ m' ρ' hpre hagree
  refine ⟨fun c => Cert.KernelIdeal.Arr.result m c, Cert.KernelIdeal.Arr.run m ρ (Cert.KernelIdeal.Blocks.ok_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Cert.ReferenceIdeal.RefAffine.ref_eq _ _ _ _ (fun i => Cert.IdRange.ids_signed _ _ _ _ (hpre c) i)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
